-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .i1⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.GraphConv.lean ====
/-
  One graph-convolution layer with a leaky rectifier, as a function of its three arrays, entry by entry.

  The layer takes node features X (10000 × 128), a dense adjacency matrix A (10000 × 10000) and a weight matrix
  W (128 × 128). It first projects the features, S = X · W, then aggregates them along the adjacency, Y = A · S, and
  finally applies the leaky rectifier to every entry: an entry that is at least zero is kept, any other entry is
  multiplied by the slope. Over the extended reals

      S (k, c) = ∑ q, X (k, q) · W (q, c)          (q over the 128 feature columns)
      Y (r, c) = ∑ k, A (r, k) · S (k, c)          (k over the 10000 nodes)
      out (r, c) = Y (r, c)            if Y (r, c) ≥ 0
                 = slope · Y (r, c)    otherwise.

  The slope is the single-precision number nearest to one fifth; it is kept as its bit pattern and never evaluated,
  because both programs compared against this function carry the same pattern. Likewise the zero the comparison is
  made against is kept as the pattern of +0.0.

  Row r of the result depends on row r of A only, and on all of X and W. This is what lets the layer be computed in
  independent bands of rows once S is known.
-/
import Idealize.ShloMosaic.PureOps.Ideal
import Idealize.ShloMosaic.Lib.ValueIdx

noncomputable section

open scoped BigOperators

namespace Cert.GraphConv

open Idealize.ShloMosaic Idealize.ShloMosaic.ValueIdx

/-- The leaky rectifier on one extended real: the value itself where it compares at least zero, the slope times the
    value elsewhere. The comparison is the ordered "greater or equal" and the product has the slope on the left. -/
def leaky (a : EReal) : EReal :=
  Scalar.select (FloatOps.cmpf (F := Ideal) (φ := .f32) .oge a (Ideal.ofBits .f32 0x00000000#32)) a
    (Ideal.ofBits .f32 0x3E4CCCCD#32 * a)

/-- The projected features: entry (k, c) of X · W. -/
def support (X : FVec Ideal ⟨2, ![10000, 128]⟩ .f32) (W : FVec Ideal ⟨2, ![128, 128]⟩ .f32)
    (k : Fin 10000) (c : Fin 128) : EReal :=
  ∑ q : Fin 128, X (ix2 k q) * W (ix2 q c)

/-- The projected features as an array. -/
def supportArr (X : FVec Ideal ⟨2, ![10000, 128]⟩ .f32) (W : FVec Ideal ⟨2, ![128, 128]⟩ .f32) :
    FVec Ideal ⟨2, ![10000, 128]⟩ .f32 := fun e => support X W (e 0) (e 1)

/-- The array of projected features read at (k, c). -/
theorem supportArr_apply (X : FVec Ideal ⟨2, ![10000, 128]⟩ .f32) (W : FVec Ideal ⟨2, ![128, 128]⟩ .f32)
    (k : Fin 10000) (c : Fin 128) : supportArr X W (ix2 k c) = support X W k c := rfl

/-- The aggregated features: entry (r, c) of A · (X · W). -/
def aggregate (X : FVec Ideal ⟨2, ![10000, 128]⟩ .f32) (A : FVec Ideal ⟨2, ![10000, 10000]⟩ .f32)
    (W : FVec Ideal ⟨2, ![128, 128]⟩ .f32) (r : Fin 10000) (c : Fin 128) : EReal :=
  ∑ k : Fin 10000, A (ix2 r k) * support X W k c

/-- The layer's result: the leaky rectifier of the aggregated features, entry by entry. -/
def layer (X : FVec Ideal ⟨2, ![10000, 128]⟩ .f32) (A : FVec Ideal ⟨2, ![10000, 10000]⟩ .f32)
    (W : FVec Ideal ⟨2, ![128, 128]⟩ .f32) : FVec Ideal ⟨2, ![10000, 128]⟩ .f32 :=
  fun e => leaky (aggregate X A W (e 0) (e 1))

/-- The layer's result read at (r, c). -/
theorem layer_apply (X : FVec Ideal ⟨2, ![10000, 128]⟩ .f32) (A : FVec Ideal ⟨2, ![10000, 10000]⟩ .f32)
    (W : FVec Ideal ⟨2, ![128, 128]⟩ .f32) (r : Fin 10000) (c : Fin 128) :
    layer X A W (ix2 r c) = leaky (aggregate X A W r c) := rfl

end Cert.GraphConv

end
-- ==== Proof.Payloads.lean ====
/-
  The two values the body stores, read at one entry over the extended reals.

  The value stored into the kept buffer is the matrix product of the loaded feature block (10000 × 128) and weight
  block (128 × 128), accumulated into zeros: at (k, c) it is the sum over q of feature (k, q) · weight (q, c).

  The value stored into the output's block is computed from the loaded adjacency band (400 × 10000) and the loaded kept
  buffer (10000 × 128): their matrix product accumulated into zeros, then, entry by entry, the leaky rectifier — the
  entry is compared with +0.0, kept where the comparison holds and replaced by slope · entry elsewhere. At (p, c) it is
  therefore the leaky rectifier of the sum over k of band (p, k) · kept (k, c). The casts of a 10000 × 128 array to its
  own shape that surround the first product change nothing.
-/
import proofs.«129255_g67619965108616_cont_9to1_m_1309_13_alg».proof.Proof.Gen.KernelIdeal.Skeleton
import proofs.«129255_g67619965108616_cont_9to1_m_1309_13_alg».proof.Proof.LibDotPlain
import proofs.«129255_g67619965108616_cont_9to1_m_1309_13_alg».proof.Proof.GraphConv
import Idealize.ShloMosaic.Lib.Pipeline.Value

noncomputable section

open scoped BigOperators
open Idealize.ShloMosaic Idealize.ShloMosaic.ValueIdx

namespace Cert.KernelIdeal.Payloads

open Cert.KernelIdeal Cert.KernelIdeal.Gen

/-- The stored product at (k, c): the sum over the 128 feature columns. -/
theorem product_apply (x0 : Vec Ideal S10000x128 .f32) (x1 : Vec Ideal S128x128 .f32) (k : Fin 10000) (c : Fin 128) :
    k0_pay1 (F := Ideal) x0 x1 (ix2 k c) = ∑ q : Fin 128, x0 (ix2 k q) * x1 (ix2 q c) := by
  unfold k0_pay1
  rw [shapeCast_self]
  exact Cert.LibDotPlain.matmul_zero_plain 10000 128 128 none x0 x1 k c

/-- The stored block at (p, c): the leaky rectifier of the sum over the 10000 nodes. -/
theorem rectified_apply (x2 : Vec Ideal S400x10000 .f32) (s : Vec Ideal S10000x128 .f32) (p : Fin 400) (c : Fin 128) :
    k0_pay2 (F := Ideal) x2 s (ix2 p c) = Cert.GraphConv.leaky (∑ k : Fin 10000, x2 (ix2 p k) * s (ix2 k c)) := by
  unfold k0_pay2
  show Cert.GraphConv.leaky
      (matmul (F := Ideal) dot_S400x10000_S10000x128_S400x128_1_0_0_1_n_n none x2 s
        (constant (F := Ideal) S400x128 .f32 0x00000000#32) (ix2 p c)) = _
  exact congrArg Cert.GraphConv.leaky (Cert.LibDotPlain.matmul_zero_plain 400 10000 128 none x2 s p c)

end Cert.KernelIdeal.Payloads

end
-- ==== Proof.Pieces.lean ====
/-
  What one run of the body leaves behind, as values.

  The body does two things. At the grid's first point only, it multiplies the whole feature array by the whole weight
  matrix and stores the product, whole, into a buffer that outlives the point (the kept buffer). At every point it then
  loads the point's band of 400 adjacency rows and the kept buffer, multiplies them, applies the leaky rectifier and
  stores the 400 × 128 result, whole, into the output's block.

  So after the first point the kept buffer holds the product of the two blocks the point was given, and the output's
  block holds the rectified product of the adjacency band with THAT product (the load of the kept buffer comes after
  the store into it, so it reads what was just stored). After any later point the kept buffer is untouched and the
  output's block holds the rectified product of the adjacency band with whatever the kept buffer held on entry.

  Each statement is about arbitrary loaded blocks and holds for any reading of the floating-point operations.
-/
import proofs.«129255_g67619965108616_cont_9to1_m_1309_13_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- First point: the kept buffer ends holding the product of the feature block and the weight block. -/
theorem kept_first (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x128 .f32) (h5 : a5.IsWhole)
    (hc : cond0_0 i) (x0 : Vec F S10000x128 .f32) (x1 : Vec F S128x128 .f32) (x2 : Vec F S400x10000 .f32) :
    sout0_A_0 c i a1 h1 a2 h2 a3 h3 a4 h4 a5 h5 hc x0 x1 x2 = k0_pay1 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero origin]
  simp only [View.readAt_eq_ld, h1.read_unread, h2.read_unread, View.ld_unit_zero (S := S10000x128) origin,
    View.ld_unit_zero (S := S128x128) origin]

/-- First point: the output's block ends holding the rectified product of the adjacency band with the product just
    stored into the kept buffer. -/
theorem block_first (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x128 .f32) (h5 : a5.IsWhole)
    (hc : cond0_0 i) (x0 : Vec F S10000x128 .f32) (x1 : Vec F S128x128 .f32) (x2 : Vec F S400x10000 .f32) :
    out0_A_3 c i a1 h1 a2 h2 a3 h3 a4 h4 a5 h5 hc x0 x1 x2 = k0_pay2 x2 (k0_pay1 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero origin]
  simp only [View.readAt_eq_ld, h1.read_unread, h2.read_unread, h3.read_unread,
    View.readCov_unit_zero (S := S10000x128) _ origin, View.ld_unit_zero (S := S10000x128) origin,
    View.ld_unit_zero (S := S128x128) origin, View.ld_unit_zero (S := S400x10000) origin]

/-- Later points: the output's block ends holding the rectified product of the adjacency band with what the kept
    buffer held on entry. -/
theorem block_later (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x128 .f32) (h5 : a5.IsWhole)
    (hc : ¬cond0_0 i) (x0 : Vec F S10000x128 .f32) (x1 : Vec F S128x128 .f32) (x2 : Vec F S400x10000 .f32)
    (xs : Vec F S10000x128 .f32) :
    out0_B_3 c i a1 h1 a2 h2 a3 h3 a4 h4 a5 h5 hc x0 x1 x2 xs = k0_pay2 x2 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero origin]
  simp only [View.readAt_eq_ld, h3.read_unread, h5.read_unread, View.ld_unit_zero (S := S400x10000) origin,
    View.ld_unit_zero (S := S10000x128) origin]

end Cert.KernelIdeal.Pieces

end
-- ==== Proof.PointContents.lean ====
/-
  What the kept buffer and the output's block hold after each grid point.

  The grid has 25 points; point t is given the whole feature array, the whole weight matrix and rows 400·t … 400·t + 399
  of the adjacency matrix. The feature and weight blocks do not move: their block index is (0, 0) at every point and the
  block is as large as the array, so the block IS the array.

  Only point 0 stores into the kept buffer, and what it stores is the product P of the whole feature array with the
  whole weight matrix. No later point stores into it. So after EVERY point the kept buffer holds P: at point 0 because
  it was just stored, at point n + 1 because it held P after point n and was not touched. This is an induction along
  the points, not an enumeration of them.

  Consequently the output's block after point t is the rectified product of the point's adjacency band with P: at point
  0 the body reads back the P it has just stored, at a later point it reads the P the point before left.
-/
import proofs.«129255_g67619965108616_cont_9to1_m_1309_13_alg».proof.Proof.Pieces

noncomputable section

open Idealize.ShloMosaic Idealize.ShloMosaic.TcCoe Idealize.SL.Sem

namespace Cert.KernelIdeal.Contents

open Cert.KernelIdeal Cert.KernelIdeal.Gen

variable {F : FTy → Type} [FloatOps F]
variable (m : (ℓ : Loc nD τ sig) → Buf (Elt F) ℓ)

/-- The three argument arrays as the region finds them, at their literal shapes. -/
abbrev feats (c : Dev nD) : Vec F S10000x128 .f32 := V m c main_arg0
abbrev weights (c : Dev nD) : Vec F S128x128 .f32 := V m c main_arg2
abbrev adjacency (c : Dev nD) : Vec F S10000x10000 .f32 := V m c main_arg1

/-- The block indices, decided over the 25 points: the feature and weight blocks stay at (0, 0); the adjacency band
    and the output block are at row-block t, column-block 0. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at any point is the whole feature array. -/
theorem feature_block (c : Dev nD) (t : Fin cfg0.N) : (iblk m c 0 t : Vec F S10000x128 .f32) = feats m c := by
  obtain ⟨e0, e1, -⟩ := block_indices t
  funext j
  unfold iblk
  rw [View.read_apply]
  show V m c main_arg0 _ = V m c main_arg0 j
  congr 1
  funext a
  apply Fin.ext
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- The weight block at any point is the whole weight matrix. -/
theorem weight_block (c : Dev nD) (t : Fin cfg0.N) : (iblk m c 1 t : Vec F S128x128 .f32) = weights m c := by
  obtain ⟨-, -, e0, e1, -⟩ := block_indices t
  funext j
  unfold iblk
  rw [View.read_apply]
  show V m c main_arg2 _ = V m c main_arg2 j
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The product P of the whole feature array with the whole weight matrix, as the body computes it. -/
abbrev projected (c : Dev nD) : Vec F S10000x128 .f32 := k0_pay1 (feats m c) (weights m c)

/-- After every point the kept buffer holds P. -/
theorem kept_eq (c : Dev nD) : ∀ (n : ℕ) (h : n < cfg0.N), (outsAt0 m c n h).2 = projected m c
  | 0, h => by
    rw [outsAt0_A m c ⟨0, h⟩ rfl]
    dsimp only
    refine (Pieces.kept_first (F := F) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) scM0_0 (Memref.isWhole_whole _)
      ((hcond0_0 ⟨0, h⟩).mpr rfl) (iblk m c 0 ⟨0, h⟩) (iblk m c 1 ⟨0, h⟩) (iblk m c 2 ⟨0, h⟩)).trans ?_
    rw [feature_block m c ⟨0, h⟩, weight_block m c ⟨0, h⟩]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact kept_eq c n _

/-- After point t the output's block holds the rectified product of the point's adjacency band with P. -/
theorem block_eq (c : Dev nD) (t : Fin cfg0.N) :
    (outsAt0 m c t.val t.isLt).1 = k0_pay2 (iblk m c 2 t) (projected m c) := by
  by_cases h0 : t.val % 25 = 0
  · rw [outsAt0_A m c t h0]
    dsimp only
    refine (Pieces.block_first (F := F) c (grid0.coords t) (ms0_0 t) (hs0_0 t) (ms0_1 t) (hs0_1 t) (ms0_2 t) (hs0_2 t)
      (ms0_3 t) (hs0_3 t) scM0_0 (Memref.isWhole_whole _) ((hcond0_0 t).mpr h0)
      (iblk m c 0 t) (iblk m c 1 t) (iblk m c 2 t)).trans ?_
    rw [feature_block m c t, weight_block m c t]
  · rw [outsAt0_B m c t h0]
    dsimp only
    refine (Pieces.block_later (F := F) c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h))
      (iblk m c 0 t) (iblk m c 1 t) (iblk m c 2 t)
      (outsAt0 m c (t.val - 1) (Nat.lt_of_le_of_lt (Nat.sub_le _ _) t.isLt)).2).trans ?_
    rw [kept_eq m c (t.val - 1) (Nat.lt_of_le_of_lt (Nat.sub_le _ _) t.isLt)]

end Cert.KernelIdeal.Contents

end
-- ==== Proof.WholeArray.lean ====
/-
  From the 25 output blocks to the whole result array.

  Point t writes back a 400 × 128 block to rows 400·t … 400·t + 399 of the result. The block's entry (p, c) is the
  leaky rectifier of the sum over k of band (p, k) · P (k, c), where the band is the point's 400 adjacency rows and P is
  the product of the whole feature array with the whole weight matrix. The band's entry (p, k) is the adjacency matrix
  at (400·t + p, k), and P (k, c) is the sum over q of feature (k, q) · weight (q, c). So the block's entry (p, c) is
  the layer function at (400·t + p, c): the block is the layer function restricted to the block's rows.

  Every row r of the result lies in exactly the block of point r / 400, and every point writes its block back. So the
  blocks cover the array, and the array after the run is the layer function of the three argument arrays.
-/
import proofs.«129255_g67619965108616_cont_9to1_m_1309_13_alg».proof.Proof.Gen.KernelIdeal.Value
import proofs.«129255_g67619965108616_cont_9to1_m_1309_13_alg».proof.Proof.Payloads
import proofs.«129255_g67619965108616_cont_9to1_m_1309_13_alg».proof.Proof.PointContents

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Contents

variable (m : (ℓ : Loc nD τ sig) → Buf (Elt Ideal) ℓ) (ρ : Dev nD → PrngReg)

/-- The layer function of the three argument arrays as the region finds them. -/
abbrev target (c : Dev nD) : Vec Ideal S10000x128 .f32 :=
  Cert.GraphConv.layer (feats m c) (adjacency m c) (weights m c)

/-- Row p of point t's band is row 400·t + p of the array. -/
def row (t : Fin cfg0.N) (p : Fin 400) : Fin 10000 :=
  ⟨400 * t.val + p.val, by have h1 := t.isLt; have hN : cfg0.N = 25 := N_0; have h2 := p.isLt; omega⟩

/-- The adjacency band of point t at (p, k) is the adjacency matrix at (400·t + p, k). -/
theorem band_apply (c : Dev nD) (t : Fin cfg0.N) (p : Fin 400) (k : Fin 10000) :
    (iblk m c 2 t : Vec Ideal S400x10000 .f32) (ix2 p k) = adjacency m c (ix2 (row t p) k) := by
  obtain ⟨-, -, -, -, e0, e1, -⟩ := block_indices t
  unfold iblk
  rw [View.read_apply]
  show V m c main_arg1 _ = V m c main_arg1 _
  congr 1
  funext a
  apply Fin.ext
  match a with
  | ⟨0, _⟩ => show win0_2.index t (0 : Fin 2) * 400 + 1 * p.val = 400 * t.val + p.val; rw [e0]; omega
  | ⟨1, _⟩ => show win0_2.index t (1 : Fin 2) * 10000 + 1 * k.val = k.val; rw [e1]; omega

/-- The block point t computes, at (p, c), is the layer function at (400·t + p, c). -/
theorem entry_eq (c : Dev nD) (t : Fin cfg0.N) (p : Fin 400) (q : Fin 128) :
    k0_pay2 (F := Ideal) (iblk m c 2 t) (projected m c) (ix2 p q) = target m c (ix2 (row t p) q) := by
  refine (Payloads.rectified_apply (iblk m c 2 t) (projected m c) p q).trans ?_
  show _ = Cert.GraphConv.leaky
    (∑ k : Fin 10000, adjacency m c (ix2 (row t p) k) * Cert.GraphConv.support (feats m c) (weights m c) k q)
  refine congrArg Cert.GraphConv.leaky (Finset.sum_congr rfl fun k _ => ?_)
  exact congrArg₂ (· * ·) (band_apply m c t p k) (Payloads.product_apply (feats m c) (weights m c) k q)

/-- What point t writes back is the layer function read through the point's block of the result array. -/
theorem flushed_eq (c : Dev nD) (t : Fin cfg0.N) :
    (dats m 0 c).flushed 3 t = ((cfg0.win 3).blk t).view.read (Elt Ideal) (target m c) := by
  rw [Value.flushed3, block_eq]
  obtain ⟨-, -, -, -, -, -, e0, e1⟩ := block_indices t
  funext y
  obtain ⟨p, q, rfl⟩ : ∃ (p : Fin 400) (q : Fin 128), y = ix2 p q := ⟨y 0, y 1, eq_ix2 y⟩
  rw [View.read_apply]
  refine (entry_eq m c t p q).trans ?_
  congr 1
  funext a
  apply Fin.ext
  match a with
  | ⟨0, _⟩ => show 400 * t.val + p.val = win0_3.index t (0 : Fin 2) * 400 + 1 * p.val; rw [e0]; omega
  | ⟨1, _⟩ => show q.val = win0_3.index t (1 : Fin 2) * 128 + 1 * q.val; rw [e1]; omega

/-- An entry of the result array lies in point t's block iff its row is one of the point's 400 rows (the block spans
    all 128 columns). -/
theorem mem_block (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0).slice (win0_3.rect t)).set ↔ _
  rw [View.set_slice_whole, Rect.mem_set_unit]
  exact Iff.rfl

/-- Every entry of the result array is in the block of the point its row falls to, row / 400, and that point writes
    its block back. -/
theorem covered (i : S10000x128.Idx) :
    ∃ t : Fin cfg0.N, (cfg0.win 3).flush t = true ∧ i ∈ ((cfg0.win 3).blk t).view.set := by
  have hr : (i 0).val < 10000 := (i 0).isLt
  have hc : (i 1).val < 128 := (i 1).isLt
  have hN : cfg0.N = 25 := N_0
  let t : Fin cfg0.N := ⟨(i 0).val / 400, by rw [hN]; omega⟩
  have ht : t.val = (i 0).val / 400 := rfl
  obtain ⟨-, -, -, -, -, -, e0, e1⟩ := block_indices t
  refine ⟨t, flush0_3 t, ?_⟩
  rw [mem_block]
  intro a
  match a with
  | ⟨0, _⟩ =>
    show win0_3.index t (0 : Fin 2) * 400 ≤ (i 0).val ∧ (i 0).val < win0_3.index t (0 : Fin 2) * 400 + 400
    rw [e0, ht]; omega
  | ⟨1, _⟩ =>
    show win0_3.index t (1 : Fin 2) * 128 ≤ (i 1).val ∧ (i 1).val < win0_3.index t (1 : Fin 2) * 128 + 128
    rw [e1]; omega

/-- The result array after the run is the layer function of the three argument arrays. -/
theorem final (c : Dev nD) : (dats m 0 c).arrAt 3 cfg0.N = target m c :=
  (dats m 0 c).arrAt_eq_of_cover 3 (target m c) (fun t _ => flushed_eq m c t) covered

/-- The run: every weakly fair execution terminates with the result array at the layer function of the argument
    arrays as launched, and the arguments unchanged. -/
theorem run : θ_run defs (onTc (τ := τ) (main (F := Ideal))) ⟨m, fun _ => 0, ρ⟩ fun r => ∀ c : Dev nD,
      r.2.mem ((c : Thread nD τ).loc main_v0)
        = Cert.GraphConv.layer (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceLayer.lean ====
/-
  The reference program computes the layer function.

  The reference is nine array operations: the product of the features with the weights, the product of the adjacency
  matrix with that, a scalar zero spread over the result's shape and the comparison of the second product with it, a
  scalar slope spread likewise and its product with the second product, and the entry-by-entry choice between the
  second product and the scaled one according to the comparison.

  Read at entry (r, c): the two spread scalars are the scalars themselves; the first product at (k, c) is the sum over
  q of feature (k, q) · weight (q, c); the second at (r, c) is the sum over k of adjacency (r, k) times that. The
  comparison, the scaling and the choice act on this one entry, and together they are the leaky rectifier of the
  layer. Nothing is rearranged: the sums are the layer's own sums, term by term.
-/
import proofs.«129255_g67619965108616_cont_9to1_m_1309_13_alg».proof.Proof.Gen.ReferenceIdeal.Read
import proofs.«129255_g67619965108616_cont_9to1_m_1309_13_alg».proof.Proof.GraphConv

noncomputable section

open scoped BigOperators
open Idealize.ShloMosaic Idealize.ShloMosaic.ValueIdx

namespace Cert.ReferenceIdeal.Layer

open Cert.ReferenceIdeal Cert.ReferenceIdeal.Gen Cert.ReferenceIdeal.Read

/-- At entry (r, c) and node k the second product reads the adjacency matrix at (r, k) -/
theorem adjacency_at (r : Fin 10000) (c : Fin 128) (k : Fin 10000) : lidx_main_v1 (ix2 r c) k = ix2 r k :=
  funext fun a => Fin.ext (by match a with | ⟨0, _⟩ => rfl | ⟨1, _⟩ => rfl)

/-- and the first product at (k, c). -/
theorem projected_at (r : Fin 10000) (c : Fin 128) (k : Fin 10000) : ridx_main_v1 (ix2 r c) k = ix2 k c :=
  funext fun a => Fin.ext (by match a with | ⟨0, _⟩ => rfl | ⟨1, _⟩ => rfl)

/-- At entry (k, c) and feature column q the first product reads the features at (k, q) -/
theorem feature_at (k : Fin 10000) (c : Fin 128) (q : Fin 128) : lidx_main_v0 (ix2 k c) q = ix2 k q :=
  funext fun a => Fin.ext (by match a with | ⟨0, _⟩ => rfl | ⟨1, _⟩ => rfl)

/-- and the weights at (q, c). -/
theorem weight_at (k : Fin 10000) (c : Fin 128) (q : Fin 128) : ridx_main_v0 (ix2 k c) q = ix2 q c :=
  funext fun a => Fin.ext (by match a with | ⟨0, _⟩ => rfl | ⟨1, _⟩ => rfl)

/-- The reference's result, as a function of its three arguments, is the layer. -/
theorem result_eq_layer (X : FVec Ideal S10000x128 .f32) (A : FVec Ideal S10000x10000 .f32) (W : FVec Ideal S128x128 .f32) :
    val_main_v6 (F := Ideal) X A W = Cert.GraphConv.layer X A W := by
  funext e
  obtain ⟨r, c, rfl⟩ : ∃ (r : Fin 10000) (c : Fin 128), e = ix2 r c := ⟨e 0, e 1, eq_ix2 e⟩
  rw [val_main_v6_apply, val_main_v3_apply, val_main_v5_apply, val_main_v2_apply, val_main_v4_apply,
    val_main_cst_apply, val_main_cst_0_apply, val_main_v1_apply]
  simp only [adjacency_at, projected_at, val_main_v0_apply, feature_at, weight_at]
  rfl

end Cert.ReferenceIdeal.Layer

end
-- ==== Proof.lean ====
/-
  A graph-convolution layer computed in row bands equals the same layer computed in one piece.

  Both programs take node features X (10000 × 128), a dense adjacency matrix A (10000 × 10000) and weights W
  (128 × 128), and both return leaky (A · (X · W)): the features projected by the weights, aggregated along the
  adjacency, and passed entry by entry through the leaky rectifier (an entry at least zero is kept, any other entry is
  multiplied by the slope, the single-precision number nearest one fifth).

  The reference forms the two matrix products and the rectifier on whole arrays. The kernel walks 25 bands of 400
  adjacency rows: at the first band it computes P = X · W once and keeps it; at every band it multiplies the band by the
  kept P, rectifies, and writes the 400 result rows back. Since row r of A · P depends only on row r of A, each band's
  400 rows are the layer's rows 400·t … 400·t + 399, and the 25 bands cover all 10000 rows.

  Over the extended reals the two programs compute, at each entry (r, c), the very same expression

      leaky ( ∑ k, A (r, k) · ∑ q, X (k, q) · W (q, c) )

  with the same comparison, the same slope pattern and the slope on the same side of the product. No sum is
  rearranged and no law of the extended reals is used, so nothing is asked of the inputs beyond what the statement
  already assumes, and that assumption is never opened.

  The modules: the layer function (GraphConv); the reference's result is that function (ReferenceLayer); what one run
  of the kernel's body leaves (Pieces) and its stored values at an entry (Payloads, over the plain matrix product of
  LibDotPlain); what the kept buffer and the output block hold after each band, by induction along the bands
  (PointContents); the 25 blocks assembled into the result array (WholeArray). The word-level kernel only has to run
  and leave its arguments alone, which is its generated frame; the idealized kernel's and the reference's likewise; the
  idealization rewrote nothing, so there is nothing to preserve.
-/
import proofs.«129255_g67619965108616_cont_9to1_m_1309_13_alg».proof.Defs
import proofs.«129255_g67619965108616_cont_9to1_m_1309_13_alg».proof.Proof.Gen.Kernel
import proofs.«129255_g67619965108616_cont_9to1_m_1309_13_alg».proof.Proof.Gen.Kernel.Skeleton
import proofs.«129255_g67619965108616_cont_9to1_m_1309_13_alg».proof.Proof.Gen.Kernel.Launch
import proofs.«129255_g67619965108616_cont_9to1_m_1309_13_alg».proof.Proof.Gen.Kernel.Points
import proofs.«129255_g67619965108616_cont_9to1_m_1309_13_alg».proof.Proof.Gen.Kernel.Frame
import proofs.«129255_g67619965108616_cont_9to1_m_1309_13_alg».proof.Proof.Gen.KernelIdeal
import proofs.«129255_g67619965108616_cont_9to1_m_1309_13_alg».proof.Proof.Gen.KernelIdeal.Skeleton
import proofs.«129255_g67619965108616_cont_9to1_m_1309_13_alg».proof.Proof.Gen.KernelIdeal.Launch
import proofs.«129255_g67619965108616_cont_9to1_m_1309_13_alg».proof.Proof.Gen.KernelIdeal.Points
import proofs.«129255_g67619965108616_cont_9to1_m_1309_13_alg».proof.Proof.Gen.KernelIdeal.Frame
import proofs.«129255_g67619965108616_cont_9to1_m_1309_13_alg».proof.Proof.Gen.ReferenceIdeal
import proofs.«129255_g67619965108616_cont_9to1_m_1309_13_alg».proof.Proof.Gen.Pre_finite_inputs
import proofs.«129255_g67619965108616_cont_9to1_m_1309_13_alg».proof.Proof.Gen.KernelIdeal.Value
import proofs.«129255_g67619965108616_cont_9to1_m_1309_13_alg».proof.Proof.Gen.ReferenceIdeal.Run
import proofs.«129255_g67619965108616_cont_9to1_m_1309_13_alg».proof.Proof.Gen.ReferenceIdeal.Read
import proofs.«129255_g67619965108616_cont_9to1_m_1309_13_alg».proof.Proof.WholeArray
import proofs.«129255_g67619965108616_cont_9to1_m_1309_13_alg».proof.Proof.ReferenceLayer
import Idealize.ShloMosaic.Adequacy
import Idealize.ShloMosaic.Init

noncomputable section

namespace Cert.Proof

open Idealize.ShloMosaic Idealize.SL.Sem

/-- The word-level kernel runs to the end and leaves its three arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the statement about its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on X, A and W the idealized kernel ends with its result array at the layer function of
    its arguments, and the reference ends with its result at the layer function of its own, which are the same
    arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Layer.result_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
